-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x16 : Shape := ⟨3, ![8192, 128, 16]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S2048x64 : Shape := ⟨2, ![2048, 64]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8192x128x16 : S_.BroadcastsInDim S8192x128x16 (![] : Fin 0 → Fin S8192x128x16.rank)
  reducesTo_S8192x128x16_S_d0_1_2 : S8192x128x16.ReducesTo [0, 1, 2] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x2048 .f32) (main_arg8 : FVec F S512 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S64 .f32) (main_arg5 : FVec F S2048x64 .f32) (main_arg6 : FVec F S2048 .f32) (main_arg7 : FVec F S512x2048 .f32) (main_arg8 : FVec F S512 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x128x16 .f32) (main_arg1 : FVec F S128x2048 .f32) (main_arg2 : FVec F S128 .f32) (main_arg3 : FVec F S64x128 .f32) (main_arg4 : FVec F S64 .f32) (main_arg5 : FVec F S2048x64 .f32) (main_arg6 : FVec F S2048 .f32) (main_arg7 : FVec F S512x2048 .f32) (main_arg8 : FVec F S512 .f32) : IVec S_ 1 :=
  let main_v0 : FVec F S8192x128x16 .f32 := Host.absf main_arg0
  let main_cst : FVec F S_ .f32 := constant S_ .f32 0x7F800000#32
  let main_v1 : FVec F S8192x128x16 .f32 := broadcastInDim S8192x128x16 ![] bcast_S_S8192x128x16 main_cst
  let main_v2 : IVec S8192x128x16 1 := cmpf .olt main_v0 main_v1
  let main_c : IVec S_ 1 := constantI S_ 1 1#1
  let main_v3 : IVec S_ 1 := (fun x v => Host.reduce IntOp.andi x v reducesTo_S8192x128x16_S_d0_1_2 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S8192x128x16 : Shape := ⟨3, ![8192, 128, 16]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S2048x64 : Shape := ⟨2, ![2048, 64]⟩
abbrev S2048 : Shape := ⟨1, ![2048]⟩
abbrev S512x2048 : Shape := ⟨2, ![512, 2048]⟩
abbrev S512 : Shape := ⟨1, ![512]⟩
abbrev S8192x2048 : Shape := ⟨2, ![8192, 2048]⟩
abbrev S2048x128 : Shape := ⟨2, ![2048, 128]⟩
abbrev S128x64 : Shape := ⟨2, ![128, 64]⟩
abbrev S64x2048 : Shape := ⟨2, ![64, 2048]⟩
abbrev S2048x512 : Shape := ⟨2, ![2048, 512]⟩
abbrev S_ : Shape := ⟨0, ![]⟩
abbrev S8192x512 : Shape := ⟨2, ![8192, 512]⟩
abbrev S512x512 : Shape := ⟨2, ![512, 512]⟩
abbrev S512x128 : Shape := ⟨2, ![512, 128]⟩
abbrev S1x128 : Shape := ⟨2, ![1, 128]⟩
abbrev S512x64 : Shape := ⟨2, ![512, 64]⟩
abbrev S1x64 : Shape := ⟨2, ![1, 64]⟩
abbrev S1x512 : Shape := ⟨2, ![1, 512]⟩

abbrev nBuf : Space → Nat
  | .hbm => 26
  | .vmem => 15
  | .smem => 0
  | _ => 0

abbrev bufTy : (tb : Table) → Fin (tcTables nBuf tb) → BufTy
  | .hbm, ⟨0, _⟩ => ⟨S8192x128x16, .f32⟩
  | .hbm, ⟨1, _⟩ => ⟨S128x2048, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S8192x2048, .f32⟩
  | .hbm, ⟨10, _⟩ => ⟨S8192x2048, .bf16⟩
  | .hbm, ⟨11, _⟩ => ⟨S128x2048, .bf16⟩
  | .hbm, ⟨12, _⟩ => ⟨S2048x128, .f32⟩
  | .hbm, ⟨13, _⟩ => ⟨S2048x128, .bf16⟩
  | .hbm, ⟨14, _⟩ => ⟨S64x128, .bf16⟩
  | .hbm, ⟨15, _⟩ => ⟨S128x64, .f32⟩
  | .hbm, ⟨16, _⟩ => ⟨S128x64, .bf16⟩
  | .hbm, ⟨17, _⟩ => ⟨S64x2048, .f32⟩
  | .hbm, ⟨18, _⟩ => ⟨S64x2048, .bf16⟩
  | .hbm, ⟨19, _⟩ => ⟨S2048x512, .f32⟩
  | .hbm, ⟨20, _⟩ => ⟨S2048x512, .bf16⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S64, .f32⟩
  | .hbm, ⟨25, _⟩ => ⟨S8192x512, .f32⟩
  | .local _ .vmem, ⟨0, _⟩ => ⟨S512x2048, .bf16⟩
  | .local _ .vmem, ⟨1, _⟩ => ⟨S512x2048, .bf16⟩
  | .local _ .vmem, ⟨2, _⟩ => ⟨S128x2048, .bf16⟩
  | .local _ .vmem, ⟨3, _⟩ => ⟨S2048x128, .bf16⟩
  | .local _ .vmem, ⟨4, _⟩ => ⟨S128, .f32⟩
  | .local _ .vmem, ⟨5, _⟩ => ⟨S64x128, .bf16⟩
  | .local _ .vmem, ⟨6, _⟩ => ⟨S128x64, .bf16⟩
  | .local _ .vmem, ⟨7, _⟩ => ⟨S64, .f32⟩
  | .local _ .vmem, ⟨8, _⟩ => ⟨S64x2048, .bf16⟩
  | .local _ .vmem, ⟨9, _⟩ => ⟨S128, .f32⟩
  | .local _ .vmem, ⟨10, _⟩ => ⟨S64, .f32⟩
  | .local _ .vmem, ⟨11, _⟩ => ⟨S2048x512, .bf16⟩
  | .local _ .vmem, ⟨12, _⟩ => ⟨S512, .f32⟩
  | .local _ .vmem, ⟨13, _⟩ => ⟨S512x512, .f32⟩
  | .local _ .vmem, ⟨14, _⟩ => ⟨S512x512, .f32⟩
  | _, _ => ⟨S8192x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S8192x128x16_S8192x2048 : S8192x128x16.ShapeCasts S8192x2048
  bitsLt_bf16_f32 : FTy.bits .bf16 < FTy.bits .f32
  transposes_S128x2048_S2048x128_1_0 : S128x2048.Transposes [1, 0] S2048x128
  transposes_S64x128_S128x64_1_0 : S64x128.Transposes [1, 0] S128x64
  transposes_S2048x64_S64x2048_1_0 : S2048x64.Transposes [1, 0] S64x2048
  transposes_S512x2048_S2048x512_1_0 : S512x2048.Transposes [1, 0] S2048x512
  reducesTo_S128x2048_S128_d1 : S128x2048.ReducesTo [1] S128
  h_S_ : 0 < S_.numel
  reducesTo_S2048x64_S64_d0 : S2048x64.ReducesTo [0] S64
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S128_S128 : S128.ShapeCasts S128
  shapeCasts_S64_S64 : S64.ShapeCasts S64
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S128_S1x128 : S128.ShapeCasts S1x128
  broadcasts_S1x128_S512x128 : S1x128.Broadcasts S512x128
  natLt_1_32 : 1 < 32
  shapeCasts_S64_S1x64 : S64.ShapeCasts S1x64
  broadcasts_S1x64_S512x64 : S1x64.Broadcasts S512x64
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S2048x128_S512x128_1_0_0_1_n_n_wf : DotDims.WF S512x2048 S2048x128 S512x128 [1] [0] [0] [1] [] []
  dot_S512x128_S128x64_S512x64_1_0_0_1_n_n_wf : DotDims.WF S512x128 S128x64 S512x64 [1] [0] [0] [1] [] []
  dot_S512x64_S64x2048_S512x2048_1_0_0_1_n_n_wf : DotDims.WF S512x64 S64x2048 S512x2048 [1] [0] [0] [1] [] []
  dot_S512x64_S64x128_S512x128_1_0_0_1_n_n_wf : DotDims.WF S512x64 S64x128 S512x128 [1] [0] [0] [1] [] []
  dot_S512x128_S128x2048_S512x2048_1_0_0_1_n_n_wf : DotDims.WF S512x128 S128x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .bf16 = 32 ∨ (Rect.block (s := S128x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .bf16 = 32 ∨ (Rect.block (s := S2048x128) S2048x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x2048.size a ≤ S64x2048.size a
  hwx0_7 : ∀ i : grid0.Coords, EltTy.bits .bf16 = 32 ∨ (Rect.block (s := S64x2048) S64x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x512.size a ≤ S2048x512.size a
  hwx0_10 : ∀ i : grid0.Coords, EltTy.bits .bf16 = 32 ∨ (Rect.block (s := S2048x512) S2048x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S8192x512.size a
  hwx0_12 : ∀ i : grid0.Coords, EltTy.bits .f32 = 32 ∨ (Rect.block (s := S8192x512) S512x512.size (cc0_transform_12 i) (hinb0_12 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S2048x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x128x16 : Shape := ⟨3, ![8192, 128, 16]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S2048x64 : Shape := ⟨2, ![2048, 64]⟩
abbrev S2048 : Shape := ⟨1, ![2048]⟩
abbrev S512x2048 : Shape := ⟨2, ![512, 2048]⟩
abbrev S512 : Shape := ⟨1, ![512]⟩
abbrev S8192x2048 : Shape := ⟨2, ![8192, 2048]⟩
abbrev S2048x128 : Shape := ⟨2, ![2048, 128]⟩
abbrev S8192x128 : Shape := ⟨2, ![8192, 128]⟩
abbrev S1x128 : Shape := ⟨2, ![1, 128]⟩
abbrev S_ : Shape := ⟨0, ![]⟩
abbrev S128x64 : Shape := ⟨2, ![128, 64]⟩
abbrev S8192x64 : Shape := ⟨2, ![8192, 64]⟩
abbrev S1x64 : Shape := ⟨2, ![1, 64]⟩
abbrev S64x2048 : Shape := ⟨2, ![64, 2048]⟩
abbrev S2048x512 : Shape := ⟨2, ![2048, 512]⟩
abbrev S8192x512 : Shape := ⟨2, ![8192, 512]⟩
abbrev S1x512 : Shape := ⟨2, ![1, 512]⟩

abbrev nBuf : Space → Nat
  | .hbm => 53
  | .vmem => 0
  | .smem => 0
  | _ => 0

abbrev bufTy : (tb : Table) → Fin (tcTables nBuf tb) → BufTy
  | .hbm, ⟨0, _⟩ => ⟨S8192x128x16, .f32⟩
  | .hbm, ⟨1, _⟩ => ⟨S128x2048, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S8192x2048, .f32⟩
  | .hbm, ⟨10, _⟩ => ⟨S2048x128, .f32⟩
  | .hbm, ⟨11, _⟩ => ⟨S8192x128, .f32⟩
  | .hbm, ⟨12, _⟩ => ⟨S1x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .i1⟩
  | .hbm, ⟨18, _⟩ => ⟨S8192x128, .f32⟩
  | .hbm, ⟨19, _⟩ => ⟨S8192x128, .f32⟩
  | .hbm, ⟨20, _⟩ => ⟨S128x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192x64, .f32⟩
  | .hbm, ⟨27, _⟩ => ⟨S8192x64, .i1⟩
  | .hbm, ⟨28, _⟩ => ⟨S8192x64, .f32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S128x64, .f32⟩
  | .hbm, ⟨35, _⟩ => ⟨S8192x64, .f32⟩
  | .hbm, ⟨36, _⟩ => ⟨S8192x64, .f32⟩
  | .hbm, ⟨37, _⟩ => ⟨S64x2048, .f32⟩
  | .hbm, ⟨38, _⟩ => ⟨S8192x2048, .f32⟩
  | .hbm, ⟨39, _⟩ => ⟨S_, .f32⟩
  | .hbm, ⟨40, _⟩ => ⟨S64, .f32⟩
  | .hbm, ⟨41, _⟩ => ⟨S1x64, .f32⟩
  | .hbm, ⟨42, _⟩ => ⟨S8192x64, .f32⟩
  | .hbm, ⟨43, _⟩ => ⟨S8192x64, .f32⟩
  | .hbm, ⟨44, _⟩ => ⟨S8192x128, .f32⟩
  | .hbm, ⟨45, _⟩ => ⟨S8192x128, .f32⟩
  | .hbm, ⟨46, _⟩ => ⟨S8192x2048, .f32⟩
  | .hbm, ⟨47, _⟩ => ⟨S8192x2048, .f32⟩
  | .hbm, ⟨48, _⟩ => ⟨S2048x512, .f32⟩
  | .hbm, ⟨49, _⟩ => ⟨S8192x512, .f32⟩
  | .hbm, ⟨50, _⟩ => ⟨S1x512, .f32⟩
  | .hbm, ⟨51, _⟩ => ⟨S8192x512, .f32⟩
  | .hbm, ⟨52, _⟩ => ⟨S8192x512, .f32⟩
  | _, _ => ⟨S8192x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  shapeCasts_S8192x128x16_S8192x2048 : S8192x128x16.ShapeCasts S8192x2048
  transposes_S128x2048_S2048x128_1_0 : S128x2048.Transposes [1, 0] S2048x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S128x2048_S128_d1 : S128x2048.ReducesTo [1] S128
  h_S_ : 0 < S_.numel
  transposes_S2048x64_S64x2048_1_0 : S2048x64.Transposes [1, 0] S64x2048
  reducesTo_S2048x64_S64_d0 : S2048x64.ReducesTo [0] S64
  transposes_S512x2048_S2048x512_1_0 : S512x2048.Transposes [1, 0] S2048x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x2048_S2048x128_S8192x128_1_0_0_1_n_n_wf : DotDims.WF S8192x2048 S2048x128 S8192x128 [1] [0] [0] [1] [] []
  dot_S8192x128_S128x64_S8192x64_1_0_0_1_n_n_wf : DotDims.WF S8192x128 S128x64 S8192x64 [1] [0] [0] [1] [] []
  dot_S8192x64_S64x2048_S8192x2048_1_0_0_1_n_n_wf : DotDims.WF S8192x64 S64x2048 S8192x2048 [1] [0] [0] [1] [] []
  dot_S8192x64_S64x128_S8192x128_1_0_0_1_n_n_wf : DotDims.WF S8192x64 S64x128 S8192x128 [1] [0] [0] [1] [] []
  dot_S8192x128_S128x2048_S8192x2048_1_0_0_1_n_n_wf : DotDims.WF S8192x128 S128x2048 S8192x2048 [1] [0] [0] [1] [] []
  dot_S8192x2048_S2048x512_S8192x512_1_0_0_1_n_n_wf : DotDims.WF S8192x2048 S2048x512 S8192x512 [1] [0] [0] [1] [] []

variable [Facts₀]

def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x2048_S8192x2048_1_0_0_1_n_n : DotDims S8192x64 S64x2048 S8192x2048 where
  lhsContracting := [1]
  rhsContracting := [0]
  lhsNonContracting := [0]
  rhsNonContracting := [1]
  lhsBatch := []
  rhsBatch := []
  wf := dot_S8192x64_S64x2048_S8192x2048_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x2048_S8192x2048_1_0_0_1_n_n : DotDims S8192x128 S128x2048 S8192x2048 where
  lhsContracting := [1]
  rhsContracting := [0]
  lhsNonContracting := [0]
  rhsNonContracting := [1]
  lhsBatch := []
  rhsBatch := []
  wf := dot_S8192x128_S128x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.LibPlainDot.lean ====
/-
  Two general readings on the extended reals, over no particular program.

  A PLAIN PRODUCT. For the dimension numbers that contract the left operand's axis 1 with the right operand's
  axis 0 and have no batch axis (an [M, K] array times a [K, N] array), the contraction index has ONE
  coordinate, which ranges over `Fin K`; the left operand is read at (row, k) and the right at (k, column).
  So the sum over the contraction index of the operands' products at output index (p, q) is
      ∑ k : Fin K, l (p, k) * r (k, q),
  and a matrix unit's product into a zero accumulator, read at (p, q), is that sum.

  A ONE-BIT WORD. Widened with zeros to 32 bits and read as a signed integer it is 0 or 1: the same number as
  the word read unsigned. So the two ways of turning a comparison's bit into a float agree.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable (M K N : Nat)

/-- On the left operand's kept axis the index is the output's row. -/
theorem lhs_row (i : (⟨2, ![M, N]⟩ : Shape).Idx) (c : (DotDims.plain M K N).contr.Idx) :
    ((DotDims.plain M K N).lhsIdx i c 0).val = (i 0).val := rfl

/-- On the left operand's contracted axis the index is the contraction coordinate. -/
theorem lhs_contr (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On the right operand's contracted axis the index is the contraction coordinate. -/
theorem rhs_contr (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On the right operand's kept axis the index is the output's column. -/
theorem rhs_col (i : (⟨2, ![M, N]⟩ : Shape).Idx) (c : (DotDims.plain M K N).contr.Idx) :
    ((DotDims.plain M K N).rhsIdx i c 1).val = (i 1).val := rfl

/-- The contraction's sum at output index (p, q), re-indexed by the shared axis's coordinate. -/
theorem sum_contr (l : (⟨2, ![M, K]⟩ : Shape).Idx → EReal) (r : (⟨2, ![K, N]⟩ : Shape).Idx → EReal) (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_contr M K N _ _).trans hk
      | ⟨1, _⟩ => exact rhs_col M K N _ _)
  rw [el, er]

/-- A matrix unit's product into the zero accumulator, read at (p, q): the plain sum over the shared axis. -/
theorem matmul_zero_apply {φ₁ φ₂ : FTy} (l : FVec Ideal ⟨2, ![M, K]⟩ φ₁) (r : FVec Ideal ⟨2, ![K, N]⟩ φ₂) (p : Fin M) (q : Fin N) :
    FloatOps.matmul (DotDims.plain M K N) none l r (constant ⟨2, ![M, N]⟩ .f32 0x00000000#32) (ix2 p q)
      = ∑ k : Fin K, l (ix2 p k) * r (ix2 k q) := by
  rw [Ideal.matmul_constant_zero_apply]
  exact sum_contr M K N l r p q

/-- A one-bit word widened with zeros and read signed is the word read unsigned, as floats. -/
theorem sitofp_widen_bit (b : BitVec 1) :
    FloatOps.sitofp (F := Ideal) .f32 (b.setWidth 32) = FloatOps.uitofp (F := Ideal) .f32 b := by
  show (((b.setWidth 32).toInt : ℝ) : EReal) = ((b.toNat : ℝ) : EReal)
  by_cases h : b = 1#1
  · subst h
    have e1 : ((1#1 : BitVec 1).setWidth 32).toInt = 1 := by decide
    have e2 : (1#1 : BitVec 1).toNat = 1 := by decide
    rw [e1, e2]; norm_num
  · have h0 := eq_zero_of_ne_one h
    subst h0
    have e1 : ((0#1 : BitVec 1).setWidth 32).toInt = 0 := by decide
    have e2 : (0#1 : BitVec 1).toNat = 0 := by decide
    rw [e1, e2]; norm_num

end Cert.LibPlainDot

end
-- ==== Proof.Spec.lean ====
/-
  WHAT BOTH PROGRAMS COMPUTE, one output row at a time, on the extended reals.

  The network is a two-hidden-layer ReLU map D = 2048 → 128 → 64 → 2048 followed by a projection to 512. For one
  sample with flattened input row x:
      hid1 = x · W1ᵀ + b1,           on1 = [hid1 > 0]           (1 where positive, else 0),
      hid2 = (hid1 ∘ on1) · W2ᵀ + b2,  on2 = [hid2 > 0].
  With the ReLU masks frozen the map's Jacobian is J = W3 diag(on2) W2 diag(on1) W1, and the result is
      ((J · 1) − (Jᵀ · 1)) · Wpᵀ + bp
  where J · 1 = (((on1 ∘ s1) · W2ᵀ) ∘ on2) · W3ᵀ with s1 the row sums of W1 (`fwd`), and
  Jᵀ · 1 = (((on2 ∘ s3) · W2) ∘ on1) · W1 with s3 the column sums of W3 (`bwd`).
  Every product here contracts the left factor's second axis with the right factor's first, so the weights are
  taken in the orientation each product uses them in: W1 and its transpose, W2 and its transpose, the transposes
  of W3 and Wp. A row of the result depends on the same row of the input only.
-/
import Idealize.ShloMosaic.PureOps.Ideal
import Idealize.ShloMosaic.Lib.ValueIdx

noncomputable section

open scoped BigOperators

namespace Cert.Spec

open Idealize.ShloMosaic Idealize.ShloMosaic.ValueIdx

/-- An [a, b] array of extended reals. -/
abbrev Mat (a b : Nat) : Type := (⟨2, ![a, b]⟩ : Shape).Idx → EReal
/-- A length-a vector of extended reals. -/
abbrev Row (a : Nat) : Type := (⟨1, ![a]⟩ : Shape).Idx → EReal

/-- The ReLU mask of one pre-activation: 1 where it is above the float zero, else 0 (the comparison's bit read
    as a number). -/
def reluMask (y : Ideal .f32) : EReal :=
  FloatOps.uitofp (F := Ideal) .f32 (FloatOps.cmpf (F := Ideal) .ogt y (Ideal.ofBits .f32 0x00000000#32))

/-- The weights, each in the orientation its product reads it in. -/
structure Params where
  /-- W1, [128, 2048]. -/
  W1 : Mat 128 2048
  /-- W1 transposed, [2048, 128]. -/
  W1T : Mat 2048 128
  b1 : Row 128
  /-- W2, [64, 128]. -/
  W2 : Mat 64 128
  /-- W2 transposed, [128, 64]. -/
  W2T : Mat 128 64
  b2 : Row 64
  /-- W3 transposed, [64, 2048]. -/
  W3T : Mat 64 2048
  /-- The row sums of W1. -/
  s1 : Row 128
  /-- The column sums of W3. -/
  s3 : Row 64
  /-- Wp transposed, [2048, 512]. -/
  WpT : Mat 2048 512
  bp : Row 512

variable (P : Params) (x : Fin 2048 → EReal)

/-- The first hidden layer's pre-activation. -/
def hid1 (j : Fin 128) : EReal := (∑ k : Fin 2048, x k * P.W1T (ix2 k j)) + P.b1 (ix1 j)

/-- The first ReLU mask. -/
def on1 (j : Fin 128) : EReal := reluMask (hid1 P x j)

/-- The second hidden layer's pre-activation. -/
def hid2 (j : Fin 64) : EReal := (∑ k : Fin 128, (hid1 P x k * on1 P x k) * P.W2T (ix2 k j)) + P.b2 (ix1 j)

/-- The second ReLU mask. -/
def on2 (j : Fin 64) : EReal := reluMask (hid2 P x j)

/-- J · 1: the masked Jacobian's row sums. -/
def fwd (d : Fin 2048) : EReal :=
  ∑ k : Fin 64, ((∑ l : Fin 128, (on1 P x l * P.s1 (ix1 l)) * P.W2T (ix2 l k)) * on2 P x k) * P.W3T (ix2 k d)

/-- Jᵀ · 1: the masked Jacobian's column sums. -/
def bwd (d : Fin 2048) : EReal :=
  ∑ k : Fin 128, ((∑ l : Fin 64, (on2 P x l * P.s3 (ix1 l)) * P.W2 (ix2 l k)) * on1 P x k) * P.W1 (ix2 k d)

/-- One row of the result: the antisymmetrized sums projected. -/
def outRow (o : Fin 512) : EReal := (∑ d : Fin 2048, (fwd P x d - bwd P x d) * P.WpT (ix2 d o)) + P.bp (ix1 o)

/-- The whole [8192, 512] result of the flattened [8192, 2048] input: row by row. -/
def G (xf : Mat 8192 2048) : Mat 8192 512 := fun i => outRow P (fun k => xf (ix2 (i 0) k)) (i 1)

end Cert.Spec

end
-- ==== Proof.KernelRow.lean ====
/-
  THE KERNEL'S BODY, ONE ELEMENT AT A TIME. At a grid point the body holds a block of 512 input rows and the eleven
  weight arrays whole; it writes a [512, 512] block. Read at (p, q) on the extended reals that block is
  `Spec.outRow` of block row p, at column q: each matrix-unit product into a zero accumulator is the plain sum
  over the shared axis, a change of float format is the identity, a bias is its vector repeated down the rows, and
  the comparison's bit, widened and read signed, is the ReLU mask.
-/
import proofs.«116336_j89988154786346_1_alg».proof.Proof.Gen.KernelIdeal.Skeleton
import proofs.«116336_j89988154786346_1_alg».proof.Proof.LibPlainDot
import proofs.«116336_j89988154786346_1_alg».proof.Proof.Spec
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx Cert.Spec

/-! ## The six products, each the plain sum over its shared axis -/

theorem mm_2048_128 (l : FVec Ideal S512x2048 .bf16) (r : FVec Ideal S2048x128 .bf16) (p : Fin 512) (q : Fin 128) :
    matmul dot_S512x2048_S2048x128_S512x128_1_0_0_1_n_n none l r (constant S512x128 .f32 0x00000000#32) (ix2 p q)
      = ∑ k : Fin 2048, l (ix2 p k) * r (ix2 k q) :=
  Cert.LibPlainDot.matmul_zero_apply 512 2048 128 l r p q

theorem mm_128_64 (l : FVec Ideal S512x128 .bf16) (r : FVec Ideal S128x64 .bf16) (p : Fin 512) (q : Fin 64) :
    matmul dot_S512x128_S128x64_S512x64_1_0_0_1_n_n none l r (constant S512x64 .f32 0x00000000#32) (ix2 p q)
      = ∑ k : Fin 128, l (ix2 p k) * r (ix2 k q) :=
  Cert.LibPlainDot.matmul_zero_apply 512 128 64 l r p q

theorem mm_64_2048 (l : FVec Ideal S512x64 .bf16) (r : FVec Ideal S64x2048 .bf16) (p : Fin 512) (q : Fin 2048) :
    matmul dot_S512x64_S64x2048_S512x2048_1_0_0_1_n_n none l r (constant S512x2048 .f32 0x00000000#32) (ix2 p q)
      = ∑ k : Fin 64, l (ix2 p k) * r (ix2 k q) :=
  Cert.LibPlainDot.matmul_zero_apply 512 64 2048 l r p q

theorem mm_64_128 (l : FVec Ideal S512x64 .bf16) (r : FVec Ideal S64x128 .bf16) (p : Fin 512) (q : Fin 128) :
    matmul dot_S512x64_S64x128_S512x128_1_0_0_1_n_n none l r (constant S512x128 .f32 0x00000000#32) (ix2 p q)
      = ∑ k : Fin 64, l (ix2 p k) * r (ix2 k q) :=
  Cert.LibPlainDot.matmul_zero_apply 512 64 128 l r p q

theorem mm_128_2048 (l : FVec Ideal S512x128 .bf16) (r : FVec Ideal S128x2048 .bf16) (p : Fin 512) (q : Fin 2048) :
    matmul dot_S512x128_S128x2048_S512x2048_1_0_0_1_n_n none l r (constant S512x2048 .f32 0x00000000#32) (ix2 p q)
      = ∑ k : Fin 128, l (ix2 p k) * r (ix2 k q) :=
  Cert.LibPlainDot.matmul_zero_apply 512 128 2048 l r p q

theorem mm_2048_512 (l : FVec Ideal S512x2048 .bf16) (r : FVec Ideal S2048x512 .bf16) (p : Fin 512) (q : Fin 512) :
    matmul dot_S512x2048_S2048x512_S512x512_1_0_0_1_n_n none l r (constant S512x512 .f32 0x00000000#32) (ix2 p q)
      = ∑ k : Fin 2048, l (ix2 p k) * r (ix2 k q) :=
  Cert.LibPlainDot.matmul_zero_apply 512 2048 512 l r p q

/-! ## A vector repeated down the 512 rows -/

theorem rows_128 (b : Vec Ideal S128 .f32) :
    broadcastTo S512x128 (shapeCast S1x128 b shapeCasts_S128_S1x128) broadcasts_S1x128_S512x128 = fun i => b (ix1 (i 1)) := by
  funext i
  obtain ⟨p, j, rfl⟩ : ∃ (p : Fin 512) (j : Fin 128), i = ix2 p j := ⟨i 0, i 1, eq_ix2 i⟩
  exact (broadcastTo_1b_ab_apply _ _ p j).trans (shapeCast_a_1a_apply _ _ 0 j)

theorem rows_64 (b : Vec Ideal S64 .f32) :
    broadcastTo S512x64 (shapeCast S1x64 b shapeCasts_S64_S1x64) broadcasts_S1x64_S512x64 = fun i => b (ix1 (i 1)) := by
  funext i
  obtain ⟨p, j, rfl⟩ : ∃ (p : Fin 512) (j : Fin 64), i = ix2 p j := ⟨i 0, i 1, eq_ix2 i⟩
  exact (broadcastTo_1b_ab_apply _ _ p j).trans (shapeCast_a_1a_apply _ _ 0 j)

theorem rows_512 (b : Vec Ideal S512 .f32) :
    broadcastTo S512x512 (shapeCast S1x512 b shapeCasts_S512_S1x512) broadcasts_S1x512_S512x512 = fun i => b (ix1 (i 1)) := by
  funext i
  obtain ⟨p, j, rfl⟩ : ∃ (p : Fin 512) (j : Fin 512), i = ix2 p j := ⟨i 0, i 1, eq_ix2 i⟩
  exact (broadcastTo_1b_ab_apply _ _ p j).trans (shapeCast_a_1a_apply _ _ 0 j)

/-! ## The ReLU mask -/

/-- The comparison with the zero splat, widened to 32 bits and read signed, is the mask of the element. -/
theorem mask_apply {s : Shape} (h : FVec Ideal s .f32) (hlt : 1 < 32) (i : s.Idx) :
    (sitofp .f32 (extui 32 (cmpf .ogt h (broadcast s (Scalar.ofBits .f32 0x00000000#32))) hlt) : FVec Ideal s .f32) i = reluMask (h i) :=
  Cert.LibPlainDot.sitofp_widen_bit _

/-! ## The body's values -/

variable (x0 : Vec Ideal S512x2048 .bf16) (x1 : Vec Ideal S128x2048 .bf16) (x2 : Vec Ideal S2048x128 .bf16)
  (x3 : Vec Ideal S128 .f32) (x4 : Vec Ideal S64x128 .bf16) (x5 : Vec Ideal S128x64 .bf16) (x6 : Vec Ideal S64 .f32)
  (x7 : Vec Ideal S64x2048 .bf16) (x8 : Vec Ideal S128 .f32) (x9 : Vec Ideal S64 .f32) (x10 : Vec Ideal S2048x512 .bf16)
  (x11 : Vec Ideal S512 .f32)

/-- The weights as the body holds them: the eleven whole windows, in window order. -/
abbrev held : Params := ⟨x1, x2, x3, x4, x5, x6, x7, x8, x9, x10, x11⟩

/-- Row p of the input block. -/
abbrev blockRow (p : Fin 512) : Fin 2048 → EReal := fun k => x0 (ix2 p k)

/-- The first pre-activation. -/
theorem pre1_apply (p : Fin 512) (j : Fin 128) :
    k0_pay9 x0 x2 x3 (ix2 p j) = hid1 (held x1 x2 x3 x4 x5 x6 x7 x8 x9 x10 x11) (blockRow x0 p) j := by
  unfold k0_pay9 hid1
  simp only [shapeCast_self]
  rw [rows_128]
  simp only [addf_apply, mm_2048_128]

/-- The first mask. -/
theorem mask1_apply (p : Fin 512) (j : Fin 128) :
    k0_pay10 x0 x2 x3 (ix2 p j) = on1 (held x1 x2 x3 x4 x5 x6 x7 x8 x9 x10 x11) (blockRow x0 p) j := by
  unfold k0_pay10 on1
  simp only [mask_apply, pre1_apply x0 x1 x2 x3 x4 x5 x6 x7 x8 x9 x10 x11]

/-- The second pre-activation. -/
theorem pre2_apply (p : Fin 512) (j : Fin 64) :
    k0_pay11 x0 x2 x3 x5 x6 (ix2 p j) = hid2 (held x1 x2 x3 x4 x5 x6 x7 x8 x9 x10 x11) (blockRow x0 p) j := by
  unfold k0_pay11 hid2 k0_pay4
  simp only [shapeCast_self]
  rw [rows_64]
  simp only [addf_apply, mulf_apply, truncf_apply, mm_128_64,
    pre1_apply x0 x1 x2 x3 x4 x5 x6 x7 x8 x9 x10 x11, mask1_apply x0 x1 x2 x3 x4 x5 x6 x7 x8 x9 x10 x11]

/-- THE STORED VALUE at (p, q): the result row of block row p, at column q. -/
theorem stored_apply (p : Fin 512) (q : Fin 512) :
    k0_pay1 (k0_pay2 x1) (k0_pay3 x4) (k0_pay4 x5) (k0_pay5 x7) (k0_pay6 x8) (k0_pay7 x9) (k0_pay8 x10) x11
        (k0_pay10 x0 x2 x3) (k0_pay11 x0 x2 x3 x5 x6) (k0_pay12 (F := Ideal)) (ix2 p q)
      = outRow (held x1 x2 x3 x4 x5 x6 x7 x8 x9 x10 x11) (blockRow x0 p) q := by
  unfold k0_pay1 k0_pay2 k0_pay3 k0_pay4 k0_pay5 k0_pay6 k0_pay7 k0_pay8 k0_pay12 outRow fwd bwd on2
  simp only [shapeCast_self]
  rw [rows_128, rows_64, rows_512]
  simp only [addf_apply, subf_apply, mulf_apply, truncf_apply, mm_128_64, mm_64_2048, mm_64_128, mm_128_2048,
    mm_2048_512, mask_apply,
    pre2_apply x0 x1 x2 x3 x4 x5 x6 x7 x8 x9 x10 x11, mask1_apply x0 x1 x2 x3 x4 x5 x6 x7 x8 x9 x10 x11]

/-- The same at any index of the block. -/
theorem stored_eq (j : S512x512.Idx) :
    k0_pay1 (k0_pay2 x1) (k0_pay3 x4) (k0_pay4 x5) (k0_pay5 x7) (k0_pay6 x8) (k0_pay7 x9) (k0_pay8 x10) x11
        (k0_pay10 x0 x2 x3) (k0_pay11 x0 x2 x3 x5 x6) (k0_pay12 (F := Ideal)) j
      = outRow (held x1 x2 x3 x4 x5 x6 x7 x8 x9 x10 x11) (blockRow x0 (j 0)) (j 1) := by
  obtain ⟨p, q, rfl⟩ : ∃ (p : Fin 512) (q : Fin 512), j = ix2 p q := ⟨j 0, j 1, eq_ix2 j⟩
  exact stored_apply x0 x1 x2 x3 x4 x5 x6 x7 x8 x9 x10 x11 p q

end Cert.KernelIdeal.RowValue

end
-- ==== Proof.KernelArray.lean ====
/-
  THE KERNEL'S RESULT ARRAY. The grid has 16 points; point t holds rows 512·t … 512·t + 511 of the flattened input and
  writes the same rows of the [8192, 512] result; the eleven weight windows are whole arrays, the same at every point.
  The arrays the region finds are the host code's: the input flattened, each weight as given or transposed, the row sums
  of W1 and the column sums of W3 (a change of float format is the identity on the extended reals). What point t writes
  back is therefore block t of `Spec.G` of those arrays, the 16 blocks cover the result, and the result array ends
  holding `G`.
-/
import proofs.«116336_j89988154786346_1_alg».proof.Proof.Gen.KernelIdeal.Value
import proofs.«116336_j89988154786346_1_alg».proof.Proof.KernelRow
import Idealize.ShloMosaic.Lib.StableHlo.Run

noncomputable section

open scoped BigOperators

namespace Cert.KernelIdeal.ArrayValue

open Cert.KernelIdeal Cert.KernelIdeal.Gen Cert.KernelIdeal.Value Cert.KernelIdeal.RowValue
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-! ## The arrays the region finds -/

/-- The weights as the host code prepares them for the kernel's products. -/
def prepared (a1 : Vec Ideal S128x2048 .f32) (a2 : Vec Ideal S128 .f32) (a3 : Vec Ideal S64x128 .f32) (a4 : Vec Ideal S64 .f32)
    (a5 : Vec Ideal S2048x64 .f32) (a7 : Vec Ideal S512x2048 .f32) (a8 : Vec Ideal S512 .f32) : Params :=
  ⟨a1, transpose S2048x128 [1, 0] a1 transposes_S128x2048_S2048x128_1_0, a2, a3,
    transpose S128x64 [1, 0] a3 transposes_S64x128_S128x64_1_0, a4,
    transpose S64x2048 [1, 0] a5 transposes_S2048x64_S64x2048_1_0,
    Host.reduceAdd (F := Ideal) a1 (constant (F := Ideal) S_ .f32 0x00000000#32) reducesTo_S128x2048_S128_d1 h_S_,
    Host.reduceAdd (F := Ideal) a5 (constant (F := Ideal) S_ .f32 0x00000000#32) reducesTo_S2048x64_S64_d0 h_S_,
    transpose S2048x512 [1, 0] a7 transposes_S512x2048_S2048x512_1_0, a8⟩

/-- The input, flattened to [8192, 2048]. -/
def flat (a0 : Vec Ideal S8192x128x16 .f32) : Mat 8192 2048 := shapeCast S8192x2048 a0 shapeCasts_S8192x128x16_S8192x2048

theorem arr0 (c : Dev nD) : (V m c main_v1 : S8192x2048.Idx → EReal) = flat (m ((c : Thread nD τ).loc main_arg0)) := by
  dsimp only [V, hostOps0]; after_results <;> rfl
theorem arr1 (c : Dev nD) : (V m c main_v2 : S128x2048.Idx → EReal) = (m ((c : Thread nD τ).loc main_arg1)) := by
  dsimp only [V, hostOps0]; after_results <;> rfl
theorem arr2 (c : Dev nD) : (V m c main_v4 : S2048x128.Idx → EReal) = (transpose S2048x128 [1, 0] (m ((c : Thread nD τ).loc main_arg1)) transposes_S128x2048_S2048x128_1_0) := by
  dsimp only [V, hostOps0]; after_results <;> rfl
theorem arr3 (c : Dev nD) : (V m c main_arg2 : S128.Idx → EReal) = (m ((c : Thread nD τ).loc main_arg2)) := by
  exact V_main_arg2 m c
theorem arr4 (c : Dev nD) : (V m c main_v5 : S64x128.Idx → EReal) = (m ((c : Thread nD τ).loc main_arg3)) := by
  dsimp only [V, hostOps0]; after_results <;> rfl
theorem arr5 (c : Dev nD) : (V m c main_v7 : S128x64.Idx → EReal) = (transpose S128x64 [1, 0] (m ((c : Thread nD τ).loc main_arg3)) transposes_S64x128_S128x64_1_0) := by
  dsimp only [V, hostOps0]; after_results <;> rfl
theorem arr6 (c : Dev nD) : (V m c main_arg4 : S64.Idx → EReal) = (m ((c : Thread nD τ).loc main_arg4)) := by
  exact V_main_arg4 m c
theorem arr7 (c : Dev nD) : (V m c main_v9 : S64x2048.Idx → EReal) = (transpose S64x2048 [1, 0] (m ((c : Thread nD τ).loc main_arg5)) transposes_S2048x64_S64x2048_1_0) := by
  dsimp only [V, hostOps0]; after_results <;> rfl
theorem arr8 (c : Dev nD) : (V m c main_v12 : S128.Idx → EReal) = (Host.reduceAdd (F := Ideal) (m ((c : Thread nD τ).loc main_arg1)) (constant (F := Ideal) S_ .f32 0x00000000#32) reducesTo_S128x2048_S128_d1 h_S_) := by
  dsimp only [V, hostOps0]; after_results <;> rfl
theorem arr9 (c : Dev nD) : (V m c main_v13 : S64.Idx → EReal) = (Host.reduceAdd (F := Ideal) (m ((c : Thread nD τ).loc main_arg5)) (constant (F := Ideal) S_ .f32 0x00000000#32) reducesTo_S2048x64_S64_d0 h_S_) := by
  dsimp only [V, hostOps0]; after_results <;> rfl
theorem arr10 (c : Dev nD) : (V m c main_v11 : S2048x512.Idx → EReal) = (transpose S2048x512 [1, 0] (m ((c : Thread nD τ).loc main_arg7)) transposes_S512x2048_S2048x512_1_0) := by
  dsimp only [V, hostOps0]; after_results <;> rfl
theorem arr11 (c : Dev nD) : (V m c main_arg8 : S512.Idx → EReal) = (m ((c : Thread nD τ).loc main_arg8)) := by
  exact V_main_arg8 m c

/-! ## Where the windows sit on the grid -/

theorem hz2 : (![0, 0] : Fin 2 → Nat) = fun _ => 0 := funext fun a => by fin_cases a <;> rfl
theorem hz1 : (![0] : Fin 1 → Nat) = fun _ => 0 := funext fun a => by fin_cases a; rfl

/-- The input and output blocks move down the rows with the point; every weight window stays at the origin. -/
theorem idx_facts : ∀ t : Fin cfg0.N, win0_0.index t (0 : Fin 2) = t.val
    ∧ win0_0.index t (1 : Fin 2) = 0
    ∧ win0_12.index t (0 : Fin 2) = t.val
    ∧ win0_12.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 1) = 0
    ∧ win0_10.index t (0 : Fin 2) = 0
    ∧ win0_10.index t (1 : Fin 2) = 0
    ∧ win0_11.index t (0 : Fin 1) = 0 :=
  (by decide +kernel : ∀ t : Fin grid0.N, _)

/-- The block of 512 input rows at point t. -/
abbrev blk0 (c : Dev nD) (t : Fin cfg0.N) : Vec Ideal S512x2048 .bf16 := iblk m c 0 t
abbrev blk1 (c : Dev nD) (t : Fin cfg0.N) : Vec Ideal S128x2048 .bf16 := iblk m c 1 t
abbrev blk2 (c : Dev nD) (t : Fin cfg0.N) : Vec Ideal S2048x128 .bf16 := iblk m c 2 t
abbrev blk3 (c : Dev nD) (t : Fin cfg0.N) : Vec Ideal S128 .f32 := iblk m c 3 t
abbrev blk4 (c : Dev nD) (t : Fin cfg0.N) : Vec Ideal S64x128 .bf16 := iblk m c 4 t
abbrev blk5 (c : Dev nD) (t : Fin cfg0.N) : Vec Ideal S128x64 .bf16 := iblk m c 5 t
abbrev blk6 (c : Dev nD) (t : Fin cfg0.N) : Vec Ideal S64 .f32 := iblk m c 6 t
abbrev blk7 (c : Dev nD) (t : Fin cfg0.N) : Vec Ideal S64x2048 .bf16 := iblk m c 7 t
abbrev blk8 (c : Dev nD) (t : Fin cfg0.N) : Vec Ideal S128 .f32 := iblk m c 8 t
abbrev blk9 (c : Dev nD) (t : Fin cfg0.N) : Vec Ideal S64 .f32 := iblk m c 9 t
abbrev blk10 (c : Dev nD) (t : Fin cfg0.N) : Vec Ideal S2048x512 .bf16 := iblk m c 10 t
abbrev blk11 (c : Dev nD) (t : Fin cfg0.N) : Vec Ideal S512 .f32 := iblk m c 11 t

/-! ## A whole window's block is its array -/

theorem blk1_eq (c : Dev nD) (t : Fin cfg0.N) : blk1 m c t = (m ((c : Thread nD τ).loc main_arg1)) := by
  have h0 : win0_1.index t (0 : Fin 2) = 0 := (idx_facts t).2.2.2.2.1
  have h1 : win0_1.index t (1 : Fin 2) = 0 := (idx_facts t).2.2.2.2.2.1
  refine Eq.trans ?_ (arr1 m c)
  funext y
  show V m c main_v2 (((cfg0.win 1).blk t).view.emb y) = V m c main_v2 y
  refine congrArg _ (funext fun a => Fin.ext ?_)
  match a with
  | ⟨0, _⟩ => show win0_1.index t (0 : Fin 2) * 128 + 1 * (y 0).val = (y 0).val; rw [h0]; omega
  | ⟨1, _⟩ => show win0_1.index t (1 : Fin 2) * 2048 + 1 * (y 1).val = (y 1).val; rw [h1]; omega
theorem blk2_eq (c : Dev nD) (t : Fin cfg0.N) : blk2 m c t = (transpose S2048x128 [1, 0] (m ((c : Thread nD τ).loc main_arg1)) transposes_S128x2048_S2048x128_1_0) := by
  have h0 : win0_2.index t (0 : Fin 2) = 0 := (idx_facts t).2.2.2.2.2.2.1
  have h1 : win0_2.index t (1 : Fin 2) = 0 := (idx_facts t).2.2.2.2.2.2.2.1
  refine Eq.trans ?_ (arr2 m c)
  funext y
  show V m c main_v4 (((cfg0.win 2).blk t).view.emb y) = V m c main_v4 y
  refine congrArg _ (funext fun a => Fin.ext ?_)
  match a with
  | ⟨0, _⟩ => show win0_2.index t (0 : Fin 2) * 2048 + 1 * (y 0).val = (y 0).val; rw [h0]; omega
  | ⟨1, _⟩ => show win0_2.index t (1 : Fin 2) * 128 + 1 * (y 1).val = (y 1).val; rw [h1]; omega
theorem blk3_eq (c : Dev nD) (t : Fin cfg0.N) : blk3 m c t = (m ((c : Thread nD τ).loc main_arg2)) := by
  have h0 : win0_3.index t (0 : Fin 1) = 0 := (idx_facts t).2.2.2.2.2.2.2.2.1
  refine Eq.trans ?_ (arr3 m c)
  funext y
  show V m c main_arg2 (((cfg0.win 3).blk t).view.emb y) = V m c main_arg2 y
  refine congrArg _ (funext fun a => Fin.ext ?_)
  match a with
  | ⟨0, _⟩ => show win0_3.index t (0 : Fin 1) * 128 + 1 * (y 0).val = (y 0).val; rw [h0]; omega
theorem blk4_eq (c : Dev nD) (t : Fin cfg0.N) : blk4 m c t = (m ((c : Thread nD τ).loc main_arg3)) := by
  have h0 : win0_4.index t (0 : Fin 2) = 0 := (idx_facts t).2.2.2.2.2.2.2.2.2.1
  have h1 : win0_4.index t (1 : Fin 2) = 0 := (idx_facts t).2.2.2.2.2.2.2.2.2.2.1
  refine Eq.trans ?_ (arr4 m c)
  funext y
  show V m c main_v5 (((cfg0.win 4).blk t).view.emb y) = V m c main_v5 y
  refine congrArg _ (funext fun a => Fin.ext ?_)
  match a with
  | ⟨0, _⟩ => show win0_4.index t (0 : Fin 2) * 64 + 1 * (y 0).val = (y 0).val; rw [h0]; omega
  | ⟨1, _⟩ => show win0_4.index t (1 : Fin 2) * 128 + 1 * (y 1).val = (y 1).val; rw [h1]; omega
theorem blk5_eq (c : Dev nD) (t : Fin cfg0.N) : blk5 m c t = (transpose S128x64 [1, 0] (m ((c : Thread nD τ).loc main_arg3)) transposes_S64x128_S128x64_1_0) := by
  have h0 : win0_5.index t (0 : Fin 2) = 0 := (idx_facts t).2.2.2.2.2.2.2.2.2.2.2.1
  have h1 : win0_5.index t (1 : Fin 2) = 0 := (idx_facts t).2.2.2.2.2.2.2.2.2.2.2.2.1
  refine Eq.trans ?_ (arr5 m c)
  funext y
  show V m c main_v7 (((cfg0.win 5).blk t).view.emb y) = V m c main_v7 y
  refine congrArg _ (funext fun a => Fin.ext ?_)
  match a with
  | ⟨0, _⟩ => show win0_5.index t (0 : Fin 2) * 128 + 1 * (y 0).val = (y 0).val; rw [h0]; omega
  | ⟨1, _⟩ => show win0_5.index t (1 : Fin 2) * 64 + 1 * (y 1).val = (y 1).val; rw [h1]; omega
theorem blk6_eq (c : Dev nD) (t : Fin cfg0.N) : blk6 m c t = (m ((c : Thread nD τ).loc main_arg4)) := by
  have h0 : win0_6.index t (0 : Fin 1) = 0 := (idx_facts t).2.2.2.2.2.2.2.2.2.2.2.2.2.1
  refine Eq.trans ?_ (arr6 m c)
  funext y
  show V m c main_arg4 (((cfg0.win 6).blk t).view.emb y) = V m c main_arg4 y
  refine congrArg _ (funext fun a => Fin.ext ?_)
  match a with
  | ⟨0, _⟩ => show win0_6.index t (0 : Fin 1) * 64 + 1 * (y 0).val = (y 0).val; rw [h0]; omega
theorem blk7_eq (c : Dev nD) (t : Fin cfg0.N) : blk7 m c t = (transpose S64x2048 [1, 0] (m ((c : Thread nD τ).loc main_arg5)) transposes_S2048x64_S64x2048_1_0) := by
  have h0 : win0_7.index t (0 : Fin 2) = 0 := (idx_facts t).2.2.2.2.2.2.2.2.2.2.2.2.2.2.1
  have h1 : win0_7.index t (1 : Fin 2) = 0 := (idx_facts t).2.2.2.2.2.2.2.2.2.2.2.2.2.2.2.1
  refine Eq.trans ?_ (arr7 m c)
  funext y
  show V m c main_v9 (((cfg0.win 7).blk t).view.emb y) = V m c main_v9 y
  refine congrArg _ (funext fun a => Fin.ext ?_)
  match a with
  | ⟨0, _⟩ => show win0_7.index t (0 : Fin 2) * 64 + 1 * (y 0).val = (y 0).val; rw [h0]; omega
  | ⟨1, _⟩ => show win0_7.index t (1 : Fin 2) * 2048 + 1 * (y 1).val = (y 1).val; rw [h1]; omega
theorem blk8_eq (c : Dev nD) (t : Fin cfg0.N) : blk8 m c t = (Host.reduceAdd (F := Ideal) (m ((c : Thread nD τ).loc main_arg1)) (constant (F := Ideal) S_ .f32 0x00000000#32) reducesTo_S128x2048_S128_d1 h_S_) := by
  have h0 : win0_8.index t (0 : Fin 1) = 0 := (idx_facts t).2.2.2.2.2.2.2.2.2.2.2.2.2.2.2.2.1
  refine Eq.trans ?_ (arr8 m c)
  funext y
  show V m c main_v12 (((cfg0.win 8).blk t).view.emb y) = V m c main_v12 y
  refine congrArg _ (funext fun a => Fin.ext ?_)
  match a with
  | ⟨0, _⟩ => show win0_8.index t (0 : Fin 1) * 128 + 1 * (y 0).val = (y 0).val; rw [h0]; omega
theorem blk9_eq (c : Dev nD) (t : Fin cfg0.N) : blk9 m c t = (Host.reduceAdd (F := Ideal) (m ((c : Thread nD τ).loc main_arg5)) (constant (F := Ideal) S_ .f32 0x00000000#32) reducesTo_S2048x64_S64_d0 h_S_) := by
  have h0 : win0_9.index t (0 : Fin 1) = 0 := (idx_facts t).2.2.2.2.2.2.2.2.2.2.2.2.2.2.2.2.2.1
  refine Eq.trans ?_ (arr9 m c)
  funext y
  show V m c main_v13 (((cfg0.win 9).blk t).view.emb y) = V m c main_v13 y
  refine congrArg _ (funext fun a => Fin.ext ?_)
  match a with
  | ⟨0, _⟩ => show win0_9.index t (0 : Fin 1) * 64 + 1 * (y 0).val = (y 0).val; rw [h0]; omega
theorem blk10_eq (c : Dev nD) (t : Fin cfg0.N) : blk10 m c t = (transpose S2048x512 [1, 0] (m ((c : Thread nD τ).loc main_arg7)) transposes_S512x2048_S2048x512_1_0) := by
  have h0 : win0_10.index t (0 : Fin 2) = 0 := (idx_facts t).2.2.2.2.2.2.2.2.2.2.2.2.2.2.2.2.2.2.1
  have h1 : win0_10.index t (1 : Fin 2) = 0 := (idx_facts t).2.2.2.2.2.2.2.2.2.2.2.2.2.2.2.2.2.2.2.1
  refine Eq.trans ?_ (arr10 m c)
  funext y
  show V m c main_v11 (((cfg0.win 10).blk t).view.emb y) = V m c main_v11 y
  refine congrArg _ (funext fun a => Fin.ext ?_)
  match a with
  | ⟨0, _⟩ => show win0_10.index t (0 : Fin 2) * 2048 + 1 * (y 0).val = (y 0).val; rw [h0]; omega
  | ⟨1, _⟩ => show win0_10.index t (1 : Fin 2) * 512 + 1 * (y 1).val = (y 1).val; rw [h1]; omega
theorem blk11_eq (c : Dev nD) (t : Fin cfg0.N) : blk11 m c t = (m ((c : Thread nD τ).loc main_arg8)) := by
  have h0 : win0_11.index t (0 : Fin 1) = 0 := (idx_facts t).2.2.2.2.2.2.2.2.2.2.2.2.2.2.2.2.2.2.2.2
  refine Eq.trans ?_ (arr11 m c)
  funext y
  show V m c main_arg8 (((cfg0.win 11).blk t).view.emb y) = V m c main_arg8 y
  refine congrArg _ (funext fun a => Fin.ext ?_)
  match a with
  | ⟨0, _⟩ => show win0_11.index t (0 : Fin 1) * 512 + 1 * (y 0).val = (y 0).val; rw [h0]; omega

/-- The weights the body holds at any point are the prepared ones. -/
theorem held_eq (c : Dev nD) (t : Fin cfg0.N) :
    held (blk1 m c t) (blk2 m c t) (blk3 m c t) (blk4 m c t) (blk5 m c t) (blk6 m c t) (blk7 m c t) (blk8 m c t) (blk9 m c t) (blk10 m c t) (blk11 m c t) = prepared (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  unfold prepared
  rw [blk1_eq m c t, blk2_eq m c t, blk3_eq m c t, blk4_eq m c t, blk5_eq m c t, blk6_eq m c t, blk7_eq m c t, blk8_eq m c t, blk9_eq m c t, blk10_eq m c t, blk11_eq m c t]

/-- Row p of the input block at point t is row 512·t + p of the flattened input: the row the output block's row p
    lands on. -/
theorem row_eq (c : Dev nD) (t : Fin cfg0.N) (j : S512x512.Idx) :
    blockRow (blk0 m c t) (j 0) = fun k => flat (m ((c : Thread nD τ).loc main_arg0)) (ix2 ((((cfg0.win 12).blk t).view.emb j) 0) k) := by
  have h00 : win0_0.index t (0 : Fin 2) = t.val := (idx_facts t).1
  have h01 : win0_0.index t (1 : Fin 2) = 0 := (idx_facts t).2.1
  have h120 : win0_12.index t (0 : Fin 2) = t.val := (idx_facts t).2.2.1
  funext k
  rw [← arr0 m c]
  show V m c main_v1 (((cfg0.win 0).blk t).view.emb (ix2 (j 0) k)) = V m c main_v1 (ix2 ((((cfg0.win 12).blk t).view.emb j) 0) k)
  refine congrArg _ (funext fun a => Fin.ext ?_)
  match a with
  | ⟨0, _⟩ => show win0_0.index t (0 : Fin 2) * 512 + 1 * (j 0).val = win0_12.index t (0 : Fin 2) * 512 + 1 * (j 0).val; rw [h00, h120]
  | ⟨1, _⟩ => show win0_0.index t (1 : Fin 2) * 2048 + 1 * k.val = k.val; rw [h01]; omega

/-- The output block spans all 512 columns. -/
theorem col_eq (t : Fin cfg0.N) (j : S512x512.Idx) : j 1 = (((cfg0.win 12).blk t).view.emb j) 1 := by
  have h121 : win0_12.index t (1 : Fin 2) = 0 := (idx_facts t).2.2.2.1
  refine Fin.ext ?_
  show (j 1).val = win0_12.index t (1 : Fin 2) * 512 + 1 * (j 1).val
  rw [h121]; omega

/-! ## What a point writes back, and the whole array -/

/-- WHAT POINT t WRITES BACK is block t of `G` of the prepared weights and the flattened input. -/
theorem flushed_eq (c : Dev nD) (t : Fin cfg0.N) :
    (dats m 0 c).flushed 12 t
      = ((cfg0.win 12).blk t).view.read (Elt Ideal) (G (prepared (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))) (flat (m ((c : Thread nD τ).loc main_arg0)))) := by
  rw [flushed12]
  unfold out0_12
  rw [View.canon_unit_zero hz2]
  simp only [View.ld_unit_zero (S := S512x2048) hz2, View.ld_unit_zero (S := S128x2048) hz2, View.ld_unit_zero (S := S2048x128) hz2, View.ld_unit_zero (S := S64x128) hz2, View.ld_unit_zero (S := S128x64) hz2, View.ld_unit_zero (S := S64x2048) hz2, View.ld_unit_zero (S := S2048x512) hz2, View.ld_unit_zero (S := S128) hz1, View.ld_unit_zero (S := S64) hz1, View.ld_unit_zero (S := S512) hz1]
  funext j
  show k0_pay1 (k0_pay2 (blk1 m c t)) (k0_pay3 (blk4 m c t)) (k0_pay4 (blk5 m c t)) (k0_pay5 (blk7 m c t)) (k0_pay6 (blk8 m c t)) (k0_pay7 (blk9 m c t)) (k0_pay8 (blk10 m c t)) (blk11 m c t) (k0_pay10 (blk0 m c t) (blk2 m c t) (blk3 m c t)) (k0_pay11 (blk0 m c t) (blk2 m c t) (blk3 m c t) (blk5 m c t) (blk6 m c t)) (k0_pay12 (F := Ideal)) j
    = G (prepared (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))) (flat (m ((c : Thread nD τ).loc main_arg0))) (((cfg0.win 12).blk t).view.emb j)
  refine (stored_eq (blk0 m c t) (blk1 m c t) (blk2 m c t) (blk3 m c t) (blk4 m c t) (blk5 m c t) (blk6 m c t) (blk7 m c t) (blk8 m c t) (blk9 m c t) (blk10 m c t) (blk11 m c t) j).trans ?_
  unfold G
  rw [held_eq m c t, row_eq m c t j]
  exact congrArg _ (col_eq t j)

/-- An index of the result is in point t's block iff each coordinate is in the block's range on its axis. -/
theorem mem_blk (t : Fin cfg0.N) (i : S8192x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v14).slice (win0_12.rect t)).set ↔ _
  rw [View.set_slice_whole, Rect.mem_set_unit]
  exact Iff.rfl

/-- Every row of the result is in the block of the point its index divided by 512 names. -/
theorem cover (i : S8192x512.Idx) :
    ∃ t : Fin cfg0.N, (cfg0.win 12).flush t = true ∧ i ∈ ((cfg0.win 12).blk t).view.set := by
  have hi0 : (i 0).val < 8192 := (i 0).isLt
  have hi1 : (i 1).val < 512 := (i 1).isLt
  have hN : cfg0.N = 16 := N_0
  obtain ⟨t, ht⟩ : ∃ t : Fin cfg0.N, t.val = (i 0).val / 512 := ⟨⟨(i 0).val / 512, by rw [hN]; omega⟩, rfl⟩
  have h120 : win0_12.index t (0 : Fin 2) = t.val := (idx_facts t).2.2.1
  have h121 : win0_12.index t (1 : Fin 2) = 0 := (idx_facts t).2.2.2.1
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; rw [h120, ht]; omega
  | ⟨1, _⟩ => show win0_12.index t (1 : Fin 2) * 512 ≤ (i 1).val ∧ (i 1).val < win0_12.index t (1 : Fin 2) * 512 + 512; rw [h121]; omega

/-- THE RESULT ARRAY after the run. -/
theorem final (c : Dev nD) :
    (dats m 0 c).arrAt 12 cfg0.N = G (prepared (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))) (flat (m ((c : Thread nD τ).loc main_arg0))) :=
  (dats m 0 c).arrAt_eq_of_cover 12 _ (fun t _ => flushed_eq m c t) cover

/-- The kernel's run: the result array at `G`, the arguments unchanged. -/
theorem run : θ_run defs (onTc (τ := τ) (main (F := Ideal))) ⟨m, fun _ => 0, ρ⟩ fun r => ∀ c : Dev nD,
      r.2.mem ((c : Thread nD τ).loc main_v14) = G (prepared (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))) (flat (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.ArrayValue

end
-- ==== Proof.RefRow.lean ====
/-
  THE REFERENCE, ONE ELEMENT AT A TIME. Its result array is `Spec.G` of the flattened input and of the weights in
  the orientation each of its seven products reads them in: every `dot_general` contracts its left operand's
  second axis with its right operand's first, so at (r, j) it is the plain sum over the shared axis; a bias is its
  vector repeated down the rows; the comparison's bit read unsigned is the ReLU mask. The transposes, the row and
  column sums and the flattening are left as the operations they are.
-/
import proofs.«116336_j89988154786346_1_alg».proof.Proof.Gen.ReferenceIdeal.Read
import proofs.«116336_j89988154786346_1_alg».proof.Proof.Spec

noncomputable section

open scoped BigOperators

namespace Cert.ReferenceIdeal.RowValue

open Cert.ReferenceIdeal Cert.ReferenceIdeal.Read Idealize.ShloMosaic Idealize.ShloMosaic.ValueIdx Cert.Spec

/-! ## Where each product and each bias reads its operands -/

theorem left_v2 (r : Fin 8192) (j : Fin 128) (k : Fin 2048) : lidx_main_v2 (ix2 r j) k = ix2 r k :=
  funext fun a => by match a with | ⟨0, _⟩ => rfl | ⟨1, _⟩ => rfl
theorem right_v2 (r : Fin 8192) (j : Fin 128) (k : Fin 2048) : ridx_main_v2 (ix2 r j) k = ix2 k j :=
  funext fun a => by match a with | ⟨0, _⟩ => rfl | ⟨1, _⟩ => rfl
theorem left_v11 (r : Fin 8192) (j : Fin 64) (k : Fin 128) : lidx_main_v11 (ix2 r j) k = ix2 r k :=
  funext fun a => by match a with | ⟨0, _⟩ => rfl | ⟨1, _⟩ => rfl
theorem right_v11 (r : Fin 8192) (j : Fin 64) (k : Fin 128) : ridx_main_v11 (ix2 r j) k = ix2 k j :=
  funext fun a => by match a with | ⟨0, _⟩ => rfl | ⟨1, _⟩ => rfl
theorem left_v23 (r : Fin 8192) (j : Fin 64) (k : Fin 128) : lidx_main_v23 (ix2 r j) k = ix2 r k :=
  funext fun a => by match a with | ⟨0, _⟩ => rfl | ⟨1, _⟩ => rfl
theorem right_v23 (r : Fin 8192) (j : Fin 64) (k : Fin 128) : ridx_main_v23 (ix2 r j) k = ix2 k j :=
  funext fun a => by match a with | ⟨0, _⟩ => rfl | ⟨1, _⟩ => rfl
theorem left_v26 (r : Fin 8192) (j : Fin 2048) (k : Fin 64) : lidx_main_v26 (ix2 r j) k = ix2 r k :=
  funext fun a => by match a with | ⟨0, _⟩ => rfl | ⟨1, _⟩ => rfl
theorem right_v26 (r : Fin 8192) (j : Fin 2048) (k : Fin 64) : ridx_main_v26 (ix2 r j) k = ix2 k j :=
  funext fun a => by match a with | ⟨0, _⟩ => rfl | ⟨1, _⟩ => rfl
theorem left_v31 (r : Fin 8192) (j : Fin 128) (k : Fin 64) : lidx_main_v31 (ix2 r j) k = ix2 r k :=
  funext fun a => by match a with | ⟨0, _⟩ => rfl | ⟨1, _⟩ => rfl
theorem right_v31 (r : Fin 8192) (j : Fin 128) (k : Fin 64) : ridx_main_v31 (ix2 r j) k = ix2 k j :=
  funext fun a => by match a with | ⟨0, _⟩ => rfl | ⟨1, _⟩ => rfl
theorem left_v33 (r : Fin 8192) (j : Fin 2048) (k : Fin 128) : lidx_main_v33 (ix2 r j) k = ix2 r k :=
  funext fun a => by match a with | ⟨0, _⟩ => rfl | ⟨1, _⟩ => rfl
theorem right_v33 (r : Fin 8192) (j : Fin 2048) (k : Fin 128) : ridx_main_v33 (ix2 r j) k = ix2 k j :=
  funext fun a => by match a with | ⟨0, _⟩ => rfl | ⟨1, _⟩ => rfl
theorem left_v36 (r : Fin 8192) (j : Fin 512) (k : Fin 2048) : lidx_main_v36 (ix2 r j) k = ix2 r k :=
  funext fun a => by match a with | ⟨0, _⟩ => rfl | ⟨1, _⟩ => rfl
theorem right_v36 (r : Fin 8192) (j : Fin 512) (k : Fin 2048) : ridx_main_v36 (ix2 r j) k = ix2 k j :=
  funext fun a => by match a with | ⟨0, _⟩ => rfl | ⟨1, _⟩ => rfl
theorem down_v4 (r : Fin 8192) (j : Fin 128) : idx_main_v3 (idx_main_v4 (ix2 r j)) = ix1 j :=
  funext fun a => by match a with | ⟨0, _⟩ => rfl
theorem down_v13 (r : Fin 8192) (j : Fin 64) : idx_main_v12 (idx_main_v13 (ix2 r j)) = ix1 j :=
  funext fun a => by match a with | ⟨0, _⟩ => rfl
theorem down_v20 (r : Fin 8192) (j : Fin 128) : idx_main_v19 (idx_main_v20 (ix2 r j)) = ix1 j :=
  funext fun a => by match a with | ⟨0, _⟩ => rfl
theorem down_v29 (r : Fin 8192) (j : Fin 64) : idx_main_v28 (idx_main_v29 (ix2 r j)) = ix1 j :=
  funext fun a => by match a with | ⟨0, _⟩ => rfl
theorem down_v38 (r : Fin 8192) (j : Fin 512) : idx_main_v37 (idx_main_v38 (ix2 r j)) = ix1 j :=
  funext fun a => by match a with | ⟨0, _⟩ => rfl

/-! ## The stages -/

variable (a0 : (⟨S8192x128x16, .f32⟩ : BufTy).Contents (Elt Ideal)) (a1 : (⟨S128x2048, .f32⟩ : BufTy).Contents (Elt Ideal)) (a2 : (⟨S128, .f32⟩ : BufTy).Contents (Elt Ideal)) (a3 : (⟨S64x128, .f32⟩ : BufTy).Contents (Elt Ideal))
  (a4 : (⟨S64, .f32⟩ : BufTy).Contents (Elt Ideal)) (a5 : (⟨S2048x64, .f32⟩ : BufTy).Contents (Elt Ideal)) (a7 : (⟨S512x2048, .f32⟩ : BufTy).Contents (Elt Ideal)) (a8 : (⟨S512, .f32⟩ : BufTy).Contents (Elt Ideal))

/-- The weights as the reference's products read them. -/
abbrev used : Params :=
  ⟨a1, val_main_v1 a1, a2, a3, val_main_v10 a3, a4, val_main_v25 a5, val_main_v18 a1, val_main_v27 a5, val_main_v35 a7, a8⟩

/-- Row r of the flattened input. -/
abbrev flatRow (r : Fin 8192) : Fin 2048 → EReal := fun k => val_main_v0 a0 (ix2 r k)

/-- The first pre-activation. -/
theorem pre1_apply (r : Fin 8192) (j : Fin 128) :
    val_main_v5 a0 a1 a2 (ix2 r j) = hid1 (used a1 a2 a3 a4 a5 a7 a8) (flatRow a0 r) j := by
  unfold hid1
  simp only [val_main_v5_apply, val_main_v2_apply, val_main_v4_apply, val_main_v3_apply, left_v2, right_v2, down_v4]
  rfl

/-- The first mask. -/
theorem mask1_apply (r : Fin 8192) (j : Fin 128) :
    val_main_v8 a0 a1 a2 (ix2 r j) = on1 (used a1 a2 a3 a4 a5 a7 a8) (flatRow a0 r) j := by
  unfold on1
  simp only [val_main_v8_apply, val_main_v7_apply, val_main_v6_apply, val_main_cst_apply, pre1_apply a0 a1 a2 a3 a4 a5 a7 a8]
  rfl

/-- The second pre-activation. -/
theorem pre2_apply (r : Fin 8192) (j : Fin 64) :
    val_main_v14 a0 a1 a2 a3 a4 (ix2 r j) = hid2 (used a1 a2 a3 a4 a5 a7 a8) (flatRow a0 r) j := by
  unfold hid2
  simp only [val_main_v14_apply, val_main_v11_apply, val_main_v13_apply, val_main_v12_apply, val_main_v9_apply,
    left_v11, right_v11, down_v13, pre1_apply a0 a1 a2 a3 a4 a5 a7 a8, mask1_apply a0 a1 a2 a3 a4 a5 a7 a8]
  rfl

/-- The second mask. -/
theorem mask2_apply (r : Fin 8192) (j : Fin 64) :
    val_main_v17 a0 a1 a2 a3 a4 (ix2 r j) = on2 (used a1 a2 a3 a4 a5 a7 a8) (flatRow a0 r) j := by
  unfold on2
  simp only [val_main_v17_apply, val_main_v16_apply, val_main_v15_apply, val_main_cst_0_apply, pre2_apply a0 a1 a2 a3 a4 a5 a7 a8]
  rfl

/-- The masked Jacobian's row sums. -/
theorem fwd_apply (r : Fin 8192) (d : Fin 2048) :
    val_main_v26 a0 a1 a2 a3 a4 a5 (ix2 r d) = fwd (used a1 a2 a3 a4 a5 a7 a8) (flatRow a0 r) d := by
  unfold fwd
  simp only [val_main_v26_apply, val_main_v24_apply, val_main_v23_apply, val_main_v21_apply, val_main_v20_apply,
    val_main_v19_apply, left_v26, right_v26, left_v23, right_v23, down_v20,
    mask1_apply a0 a1 a2 a3 a4 a5 a7 a8, mask2_apply a0 a1 a2 a3 a4 a5 a7 a8]
  rfl

/-- The masked Jacobian's column sums. -/
theorem bwd_apply (r : Fin 8192) (d : Fin 2048) :
    val_main_v33 a0 a1 a2 a3 a4 a5 (ix2 r d) = bwd (used a1 a2 a3 a4 a5 a7 a8) (flatRow a0 r) d := by
  unfold bwd
  simp only [val_main_v33_apply, val_main_v32_apply, val_main_v31_apply, val_main_v30_apply, val_main_v29_apply,
    val_main_v28_apply, left_v33, right_v33, left_v31, right_v31, down_v29,
    mask1_apply a0 a1 a2 a3 a4 a5 a7 a8, mask2_apply a0 a1 a2 a3 a4 a5 a7 a8]
  rfl

/-- One element of the result. -/
theorem out_apply (r : Fin 8192) (o : Fin 512) :
    val_main_v39 a0 a1 a2 a3 a4 a5 a7 a8 (ix2 r o) = outRow (used a1 a2 a3 a4 a5 a7 a8) (flatRow a0 r) o := by
  unfold outRow
  simp only [val_main_v39_apply, val_main_v36_apply, val_main_v38_apply, val_main_v37_apply, val_main_v34_apply,
    left_v36, right_v36, down_v38, fwd_apply a0 a1 a2 a3 a4 a5 a7 a8, bwd_apply a0 a1 a2 a3 a4 a5 a7 a8]
  rfl

/-- THE REFERENCE'S RESULT is `G` of the flattened input, under the weights as its products read them. -/
theorem result_eq :
    val_main_v39 a0 a1 a2 a3 a4 a5 a7 a8 = G (used a1 a2 a3 a4 a5 a7 a8) (val_main_v0 a0) := by
  funext i
  obtain ⟨r, o, rfl⟩ : ∃ (r : Fin 8192) (o : Fin 512), i = ix2 r o := ⟨i 0, i 1, eq_ix2 i⟩
  exact out_apply a0 a1 a2 a3 a4 a5 a7 a8 r o

end Cert.ReferenceIdeal.RowValue

end
-- ==== Proof.lean ====
/-
  The kernel and its reference compute the same [8192, 512] array on the extended reals.

  Both are the map described in Proof/Spec.lean applied row by row: two ReLU layers' masks, the masked Jacobian's row
  sums minus its column sums, projected. The reference does it over all 8192 rows at once with seven `dot_general`s
  on transposed weights; the kernel does it for 512 rows per grid point with six matrix-unit products, the transposes
  taken once on the host. On the extended reals a product into a zero accumulator and a `dot_general` are the same
  plain sum over the shared axis, a change of float format is the identity, and a comparison's bit read signed after
  widening or read unsigned is the same 0 or 1; so each side's result is `Spec.G` of its operand arrays
  (Proof/KernelRow.lean and Proof/KernelArray.lean for the kernel, Proof/RefRow.lean for the reference), and the two
  sides' operand arrays are the same operations of the same arguments. No law of arithmetic beyond re-indexing a sum
  is used, so the inputs' finiteness is never needed. The ideal pass rewrote nothing, so `preserves` is trivial; the
  kernel's two frames are the generated ones, the reference's is its generated run with the result dropped.
-/
import proofs.«116336_j89988154786346_1_alg».proof.Defs
import proofs.«116336_j89988154786346_1_alg».proof.Proof.Gen.Kernel
import proofs.«116336_j89988154786346_1_alg».proof.Proof.Gen.Kernel.Skeleton
import proofs.«116336_j89988154786346_1_alg».proof.Proof.Gen.Kernel.Launch
import proofs.«116336_j89988154786346_1_alg».proof.Proof.Gen.Kernel.Points
import proofs.«116336_j89988154786346_1_alg».proof.Proof.Gen.Kernel.Frame
import proofs.«116336_j89988154786346_1_alg».proof.Proof.Gen.KernelIdeal
import proofs.«116336_j89988154786346_1_alg».proof.Proof.Gen.KernelIdeal.Skeleton
import proofs.«116336_j89988154786346_1_alg».proof.Proof.Gen.KernelIdeal.Launch
import proofs.«116336_j89988154786346_1_alg».proof.Proof.Gen.KernelIdeal.Points
import proofs.«116336_j89988154786346_1_alg».proof.Proof.Gen.KernelIdeal.Frame
import proofs.«116336_j89988154786346_1_alg».proof.Proof.Gen.ReferenceIdeal
import proofs.«116336_j89988154786346_1_alg».proof.Proof.Gen.Pre_finite_inputs
import proofs.«116336_j89988154786346_1_alg».proof.Proof.Gen.KernelIdeal.Value
import proofs.«116336_j89988154786346_1_alg».proof.Proof.Gen.ReferenceIdeal.Run
import proofs.«116336_j89988154786346_1_alg».proof.Proof.Gen.ReferenceIdeal.Read
import proofs.«116336_j89988154786346_1_alg».proof.Proof.KernelArray
import proofs.«116336_j89988154786346_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `Spec.G` of their operand arrays, and those are the same operations of arguments that
    agree: the flattened input, each weight as given or transposed, W1's row sums and W3's column sums. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, _, e7, e8⟩ := hagree c
  rw [Cert.ReferenceIdeal.Read.val_main_v39_eq, Cert.ReferenceIdeal.RowValue.result_eq, e0, e1, e2, e3, e4, e5, e7, e8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
